-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S20000x128 .f32) (main_arg1 : IVec S2x320000 32) (main_arg2 : FVec F S128x256 .f32) (main_arg3 : FVec F S256 .f32) (main_arg4 : FVec F S256x256 .f32) (main_arg5 : FVec F S256 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x256 : Shape := ⟨2, ![20000, 256]⟩
abbrev S2000x128 : Shape := ⟨2, ![2000, 128]⟩
abbrev S2000x256 : Shape := ⟨2, ![2000, 256]⟩
abbrev S340000x256 : Shape := ⟨2, ![340000, 256]⟩
abbrev S1x256 : Shape := ⟨2, ![1, 256]⟩

abbrev nBuf : Space → Nat
  | .hbm => 84
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S20000, .i32⟩
  | .hbm, ⟨7, _⟩ => ⟨S1x320000, .i32⟩
  | .hbm, ⟨8, _⟩ => ⟨S320000, .i32⟩
  | .hbm, ⟨9, _⟩ => ⟨S340000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S_, .f32⟩
  | .hbm, ⟨14, _⟩ => ⟨S340000, .f32⟩
  | .hbm, ⟨15, _⟩ => ⟨S_, .f32⟩
  | .hbm, ⟨16, _⟩ => ⟨S20000, .f32⟩
  | .hbm, ⟨17, _⟩ => ⟨S340000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .f32⟩
  | .hbm, ⟨23, _⟩ => ⟨S_, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S340000, .i32⟩
  | .hbm, ⟨29, _⟩ => ⟨S340000, .i1⟩
  | .hbm, ⟨30, _⟩ => ⟨S_, .i32⟩
  | .hbm, ⟨31, _⟩ => ⟨S340000, .i32⟩
  | .hbm, ⟨32, _⟩ => ⟨S340000, .i32⟩
  | .hbm, ⟨33, _⟩ => ⟨S340000, .i32⟩
  | .hbm, ⟨34, _⟩ => ⟨S340000x1, .i32⟩
  | .hbm, ⟨35, _⟩ => ⟨S340000, .f32⟩
  | .hbm, ⟨36, _⟩ => ⟨S_, .i32⟩
  | .hbm, ⟨37, _⟩ => ⟨S340000, .i32⟩
  | .hbm, ⟨38, _⟩ => ⟨S340000, .i1⟩
  | .hbm, ⟨39, _⟩ => ⟨S_, .i32⟩
  | .hbm, ⟨40, _⟩ => ⟨S340000, .i32⟩
  | .hbm, ⟨41, _⟩ => ⟨S340000, .i32⟩
  | .hbm, ⟨42, _⟩ => ⟨S340000, .i32⟩
  | .hbm, ⟨43, _⟩ => ⟨S340000x1, .i32⟩
  | .hbm, ⟨44, _⟩ => ⟨S340000, .f32⟩
  | .hbm, ⟨45, _⟩ => ⟨S340000, .f32⟩
  | .hbm, ⟨46, _⟩ => ⟨S20000x256, .f32⟩
  | .hbm, ⟨47, _⟩ => ⟨S_, .i32⟩
  | .hbm, ⟨48, _⟩ => ⟨S340000, .i32⟩
  | .hbm, ⟨49, _⟩ => ⟨S340000, .i1⟩
  | .hbm, ⟨50, _⟩ => ⟨S_, .i32⟩
  | .hbm, ⟨51, _⟩ => ⟨S340000, .i32⟩
  | .hbm, ⟨52, _⟩ => ⟨S340000, .i32⟩
  | .hbm, ⟨53, _⟩ => ⟨S340000, .i32⟩
  | .hbm, ⟨54, _⟩ => ⟨S340000x1, .i32⟩
  | .hbm, ⟨55, _⟩ => ⟨S340000x256, .f32⟩
  | .hbm, ⟨56, _⟩ => ⟨S340000x1, .f32⟩
  | .hbm, ⟨57, _⟩ => ⟨S340000x256, .f32⟩
  | .hbm, ⟨58, _⟩ => ⟨S340000x256, .f32⟩
  | .hbm, ⟨59, _⟩ => ⟨S_, .f32⟩
  | .hbm, ⟨60, _⟩ => ⟨S20000x256, .f32⟩
  | .hbm, ⟨61, _⟩ => ⟨S340000x1, .i32⟩
  | .hbm, ⟨62, _⟩ => ⟨S20000x256, .f32⟩
  | .hbm, ⟨63, _⟩ => ⟨S1x256, .f32⟩
  | .hbm, ⟨64, _⟩ => ⟨S20000x256, .f32⟩
  | .hbm, ⟨65, _⟩ => ⟨S20000x256, .f32⟩
  | .hbm, ⟨66, _⟩ => ⟨S_, .i32⟩
  | .hbm, ⟨67, _⟩ => ⟨S340000, .i32⟩
  | .hbm, ⟨68, _⟩ => ⟨S340000, .i1⟩
  | .hbm, ⟨69, _⟩ => ⟨S_, .i32⟩
  | .hbm, ⟨70, _⟩ => ⟨S340000, .i32⟩
  | .hbm, ⟨71, _⟩ => ⟨S340000, .i32⟩
  | .hbm, ⟨72, _⟩ => ⟨S340000, .i32⟩
  | .hbm, ⟨73, _⟩ => ⟨S340000x1, .i32⟩
  | .hbm, ⟨74, _⟩ => ⟨S340000x256, .f32⟩
  | .hbm, ⟨75, _⟩ => ⟨S340000x1, .f32⟩
  | .hbm, ⟨76, _⟩ => ⟨S340000x256, .f32⟩
  | .hbm, ⟨77, _⟩ => ⟨S340000x256, .f32⟩
  | .hbm, ⟨78, _⟩ => ⟨S_, .f32⟩
  | .hbm, ⟨79, _⟩ => ⟨S20000x256, .f32⟩
  | .hbm, ⟨80, _⟩ => ⟨S340000x1, .i32⟩
  | .hbm, ⟨81, _⟩ => ⟨S20000x256, .f32⟩
  | .hbm, ⟨82, _⟩ => ⟨S1x256, .f32⟩
  | .hbm, ⟨83, _⟩ => ⟨S20000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x128_S128x256_S2000x256_1_0_0_1_n_n_wf : DotDims.WF S2000x128 S128x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x256 : Shape := ⟨2, ![20000, 256]⟩
abbrev S340000x256 : Shape := ⟨2, ![340000, 256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S20000, .i32⟩
  | .hbm, ⟨7, _⟩ => ⟨S1x320000, .i32⟩
  | .hbm, ⟨8, _⟩ => ⟨S320000, .i32⟩
  | .hbm, ⟨9, _⟩ => ⟨S340000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S_, .f32⟩
  | .hbm, ⟨14, _⟩ => ⟨S340000, .f32⟩
  | .hbm, ⟨15, _⟩ => ⟨S_, .f32⟩
  | .hbm, ⟨16, _⟩ => ⟨S20000, .f32⟩
  | .hbm, ⟨17, _⟩ => ⟨S340000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .f32⟩
  | .hbm, ⟨23, _⟩ => ⟨S_, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S340000, .i32⟩
  | .hbm, ⟨29, _⟩ => ⟨S340000, .i1⟩
  | .hbm, ⟨30, _⟩ => ⟨S_, .i32⟩
  | .hbm, ⟨31, _⟩ => ⟨S340000, .i32⟩
  | .hbm, ⟨32, _⟩ => ⟨S340000, .i32⟩
  | .hbm, ⟨33, _⟩ => ⟨S340000, .i32⟩
  | .hbm, ⟨34, _⟩ => ⟨S340000x1, .i32⟩
  | .hbm, ⟨35, _⟩ => ⟨S340000, .f32⟩
  | .hbm, ⟨36, _⟩ => ⟨S_, .i32⟩
  | .hbm, ⟨37, _⟩ => ⟨S340000, .i32⟩
  | .hbm, ⟨38, _⟩ => ⟨S340000, .i1⟩
  | .hbm, ⟨39, _⟩ => ⟨S_, .i32⟩
  | .hbm, ⟨40, _⟩ => ⟨S340000, .i32⟩
  | .hbm, ⟨41, _⟩ => ⟨S340000, .i32⟩
  | .hbm, ⟨42, _⟩ => ⟨S340000, .i32⟩
  | .hbm, ⟨43, _⟩ => ⟨S340000x1, .i32⟩
  | .hbm, ⟨44, _⟩ => ⟨S340000, .f32⟩
  | .hbm, ⟨45, _⟩ => ⟨S340000, .f32⟩
  | .hbm, ⟨46, _⟩ => ⟨S20000x256, .f32⟩
  | .hbm, ⟨47, _⟩ => ⟨S_, .i32⟩
  | .hbm, ⟨48, _⟩ => ⟨S340000, .i32⟩
  | .hbm, ⟨49, _⟩ => ⟨S340000, .i1⟩
  | .hbm, ⟨50, _⟩ => ⟨S_, .i32⟩
  | .hbm, ⟨51, _⟩ => ⟨S340000, .i32⟩
  | .hbm, ⟨52, _⟩ => ⟨S340000, .i32⟩
  | .hbm, ⟨53, _⟩ => ⟨S340000, .i32⟩
  | .hbm, ⟨54, _⟩ => ⟨S340000x1, .i32⟩
  | .hbm, ⟨55, _⟩ => ⟨S340000x256, .f32⟩
  | .hbm, ⟨56, _⟩ => ⟨S340000x1, .f32⟩
  | .hbm, ⟨57, _⟩ => ⟨S340000x256, .f32⟩
  | .hbm, ⟨58, _⟩ => ⟨S340000x256, .f32⟩
  | .hbm, ⟨59, _⟩ => ⟨S_, .f32⟩
  | .hbm, ⟨60, _⟩ => ⟨S20000x256, .f32⟩
  | .hbm, ⟨61, _⟩ => ⟨S340000x1, .i32⟩
  | .hbm, ⟨62, _⟩ => ⟨S20000x256, .f32⟩
  | .hbm, ⟨63, _⟩ => ⟨S1x256, .f32⟩
  | .hbm, ⟨64, _⟩ => ⟨S20000x256, .f32⟩
  | .hbm, ⟨65, _⟩ => ⟨S20000x256, .f32⟩
  | .hbm, ⟨66, _⟩ => ⟨S_, .f32⟩
  | .hbm, ⟨67, _⟩ => ⟨S20000x256, .f32⟩
  | .hbm, ⟨68, _⟩ => ⟨S20000x256, .f32⟩
  | .hbm, ⟨69, _⟩ => ⟨S20000x256, .f32⟩
  | .hbm, ⟨70, _⟩ => ⟨S_, .i32⟩
  | .hbm, ⟨71, _⟩ => ⟨S340000, .i32⟩
  | .hbm, ⟨72, _⟩ => ⟨S340000, .i1⟩
  | .hbm, ⟨73, _⟩ => ⟨S_, .i32⟩
  | .hbm, ⟨74, _⟩ => ⟨S340000, .i32⟩
  | .hbm, ⟨75, _⟩ => ⟨S340000, .i32⟩
  | .hbm, ⟨76, _⟩ => ⟨S340000, .i32⟩
  | .hbm, ⟨77, _⟩ => ⟨S340000x1, .i32⟩
  | .hbm, ⟨78, _⟩ => ⟨S340000x256, .f32⟩
  | .hbm, ⟨79, _⟩ => ⟨S340000x1, .f32⟩
  | .hbm, ⟨80, _⟩ => ⟨S340000x256, .f32⟩
  | .hbm, ⟨81, _⟩ => ⟨S340000x256, .f32⟩
  | .hbm, ⟨82, _⟩ => ⟨S_, .f32⟩
  | .hbm, ⟨83, _⟩ => ⟨S20000x256, .f32⟩
  | .hbm, ⟨84, _⟩ => ⟨S340000x1, .i32⟩
  | .hbm, ⟨85, _⟩ => ⟨S20000x256, .f32⟩
  | .hbm, ⟨86, _⟩ => ⟨S1x256, .f32⟩
  | .hbm, ⟨87, _⟩ => ⟨S20000x256, .f32⟩
  | .hbm, ⟨88, _⟩ => ⟨S20000x256, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S20000x128_S128x256_S20000x256_1_0_0_1_n_n_wf : DotDims.WF S20000x128 S128x256 S20000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x256_S20000x256_1_0_0_1_n_n_wf : DotDims.WF S20000x256 S256x256 S20000x256 [1] [0] [0] [1] [] []

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.Chain.lean ====
/-
  The host operations the two programs share, as functions of the arrays they read.

  Both programs build, from the edge list e (two rows of 320000 node numbers), the source and the target of
  every message: row 0, respectively row 1, of e followed by the self loops 0, 1, …, 19999. A target's degree
  is the number of messages that reach it (a scatter-add of ones), its weight the inverse square root of
  the degree where the degree is positive and 0 elsewhere, and a message's coefficient the product of its
  source's and its target's weights. A layer's aggregation of a feature matrix h takes, for every message,
  row source of h times the message's coefficient, and adds it into row target of a zero matrix. An index
  below zero counts from the end (20000 is added to it) before a row is taken.

  These are stated once, over any float family, so that the kernel's program (whose two aggregation
  stretches are this one function of a matrix) and the reference's composed term are compared with the
  aggregation closed: what differs between the programs is only the matrix that goes in.
-/
import proofs.«157684_j84559316124099_1_alg».proof.Proof.Gen.KernelIdeal

noncomputable section

namespace Cert.KernelIdeal.Chain

open Cert.KernelIdeal Cert.KernelIdeal.Gen Idealize.ShloMosaic Idealize.ShloMosaic.TcCoe

variable {F : FTy → Type} [FloatOps F]

/-- The source of every message: row 0 of the edge list, then the self loops. -/
def srcT (e : (⟨S2x320000, .i32⟩ : BufTy).Contents (Elt F)) : (⟨S340000, .i32⟩ : BufTy).Contents (Elt F) :=
  concatenate S340000 0 [⟨S320000, (shapeCast _ (extractStridedSlice S1x320000 ![0, 0] e slices_S2x320000_S1x320000_0_0) shapeCasts_S1x320000_S320000)⟩, ⟨S20000, (iotaInDim S20000 32 0)⟩] concatenates_S320000_S20000_S340000_d0

/-- The target of every message: row 1 of the edge list, then the self loops. -/
def dstT (e : (⟨S2x320000, .i32⟩ : BufTy).Contents (Elt F)) : (⟨S340000, .i32⟩ : BufTy).Contents (Elt F) :=
  concatenate S340000 0 [⟨S320000, (shapeCast _ (extractStridedSlice S1x320000 ![1, 0] e slices_S2x320000_S1x320000_1_0) shapeCasts_S1x320000_S320000)⟩, ⟨S20000, (iotaInDim S20000 32 0)⟩] concatenates_S320000_S20000_S340000_d0

/-- A list of node numbers as the column of row indices a gather takes: a negative number has 20000 added. -/
def rowsT (v : (⟨S340000, .i32⟩ : BufTy).Contents (Elt F)) : (⟨S340000x1, .i32⟩ : BufTy).Contents (Elt F) :=
  broadcastInDim S340000x1 ![0] bcast_S340000_S340000x1_0 (select (cmpi .slt v (broadcastInDim S340000 ![] bcast_S_S340000 (constantI S_ 32 0#32))) (addi v (broadcastInDim S340000 ![] bcast_S_S340000 (constantI S_ 32 20000#32))) v)

/-- The degree of every node: a one added at the target of every message. -/
def degT (d : (⟨S340000, .i32⟩ : BufTy).Contents (Elt F)) : (⟨S20000, .f32⟩ : BufTy).Contents (Elt F) :=
  Host.scatterAdd scatter_S20000_S340000x1_S340000_n_0_0_1 (broadcastInDim S20000 ![] bcast_S_S20000 (constant S_ .f32 0x00000000#32)) (broadcastInDim S340000x1 ![0] bcast_S340000_S340000x1_0 d) (broadcastInDim S340000 ![] bcast_S_S340000 (constant S_ .f32 0x3F800000#32))

/-- The weight of every node: the inverse square root of its degree where that is positive, else 0. -/
def weightT (d : (⟨S340000, .i32⟩ : BufTy).Contents (Elt F)) : (⟨S20000, .f32⟩ : BufTy).Contents (Elt F) :=
  select (cmpf (F := F) .ogt (degT d) (broadcastInDim S20000 ![] bcast_S_S20000 (constant S_ .f32 0x00000000#32))) (Host.rsqrt (degT d)) (broadcastInDim S20000 ![] bcast_S_S20000 (id (constant S_ .f32 0x00000000#32)))

/-- The coefficient of every message: its source's weight times its target's. -/
def coefT (s d : (⟨S340000, .i32⟩ : BufTy).Contents (Elt F)) : (⟨S340000, .f32⟩ : BufTy).Contents (Elt F) :=
  mulf (Host.gather gather_S20000_S340000x1_S340000_n_0_n_n_0_1_1 (weightT d) (rowsT s)) (Host.gather gather_S20000_S340000x1_S340000_n_0_n_n_0_1_1 (weightT d) (rowsT d))

/-- The aggregation of a feature matrix: for every message, row source of h scaled by the message's
    coefficient n, added into row target of the zero matrix. -/
def aggT (h : (⟨S20000x256, .f32⟩ : BufTy).Contents (Elt F)) (s d : (⟨S340000, .i32⟩ : BufTy).Contents (Elt F))
    (n : (⟨S340000, .f32⟩ : BufTy).Contents (Elt F)) : (⟨S20000x256, .f32⟩ : BufTy).Contents (Elt F) :=
  Host.scatterAdd scatter_S20000x256_S340000x1_S340000x256_1_0_0_1 (broadcastInDim S20000x256 ![] bcast_S_S20000x256 (constant S_ .f32 0x00000000#32)) (broadcastInDim S340000x1 ![0] bcast_S340000_S340000x1_0 d) (mulf (Host.gather gather_S20000x256_S340000x1_S340000x256_1_0_n_n_0_1_1256 h (rowsT s)) (broadcastInDim S340000x256 ![0, 1] bcast_S340000x1_S340000x256_0_1 (broadcastInDim S340000x1 ![0] bcast_S340000_S340000x1_0 n)))

/-- A bias vector as the one-row matrix the kernel's bias regions read. -/
def rowT (b : (⟨S256, .f32⟩ : BufTy).Contents (Elt F)) : (⟨S1x256, .f32⟩ : BufTy).Contents (Elt F) :=
  shapeCast _ b shapeCasts_S256_S1x256

end Cert.KernelIdeal.Chain

end
-- ==== Proof.Spec.lean ====
/-
  The dense pieces of a two-layer graph convolution, entry by entry over the extended reals.

  A layer is relu?(A (X W) + b): the product X W of the node features with the layer's weights, the
  normalised adjacency A applied to it (a gather along the edges, a scaling, a scatter-add: the same host
  operations in both programs, never opened here), and the bias row b added to every row, followed, in the
  first layer, by the positive part. The three functions below are what the dense pieces compute at one entry:
  a matrix product as the sum over the contracted index, a row added to every row, and the same followed
  by the maximum with 0. A matrix is a function of its two coordinates; a row is a matrix of one row.
-/
import Idealize.ShloMosaic.PureOps.Ideal
import Idealize.ShloMosaic.Lib.ValueIdx

noncomputable section

namespace Cert.Spec

open Idealize.ShloMosaic Idealize.ShloMosaic.ValueIdx

/-- A float matrix of r rows and c columns at the ideal instance: one extended real per entry. -/
abbrev Mat (r c : Nat) := FVec Ideal (⟨2, ![r, c]⟩ : Shape) .f32

/-- The matrix product: entry (p, q) is the sum over k of A (p, k) * B (k, q). -/
def matProd {M K N : Nat} (A : Mat M K) (B : Mat K N) : Mat M N :=
  fun i => ∑ k : Fin K, A (ix2 (i 0) k) * B (ix2 k (i 1))

/-- The one-row matrix b added to every row of A: entry (p, q) is A (p, q) + b (0, q). -/
def addRow {M N : Nat} (A : Mat M N) (b : Mat 1 N) : Mat M N :=
  fun i => A i + b (ix2 0 (i 1))

/-- The same followed by the positive part: entry (p, q) is max (A (p, q) + b (0, q)) 0. -/
def addRowRelu {M N : Nat} (A : Mat M N) (b : Mat 1 N) : Mat M N :=
  fun i => max (A i + b (ix2 0 (i 1))) 0

theorem matProd_apply {M K N : Nat} (A : Mat M K) (B : Mat K N) (i : (⟨2, ![M, N]⟩ : Shape).Idx) :
    matProd A B i = ∑ k : Fin K, A (ix2 (i 0) k) * B (ix2 k (i 1)) := rfl

theorem addRow_apply {M N : Nat} (A : Mat M N) (b : Mat 1 N) (i : (⟨2, ![M, N]⟩ : Shape).Idx) :
    addRow A b i = A i + b (ix2 0 (i 1)) := rfl

theorem addRowRelu_apply {M N : Nat} (A : Mat M N) (b : Mat 1 N) (i : (⟨2, ![M, N]⟩ : Shape).Idx) :
    addRowRelu A b i = max (A i + b (ix2 0 (i 1))) 0 := rfl

end Cert.Spec

end
-- ==== Proof.KFold.lean ====
/-
  What the kernel's program leaves in its result buffer, as one function of the argument arrays.

  The program's run is a fold over its segments: a host stretch applies its operations to the buffer
  contents it starts from, and a kernel region replaces its output array by what its pipeline leaves and
  keeps every other buffer. Read from the end: the result is the second bias region's output, bias row b2
  added to every row of the second aggregation; that aggregation is the shared host chain (Chain.lean)
  applied to the second matmul region's output, the product of the hidden features with W2; the hidden
  features are the first bias region's output, the positive part of the first aggregation plus b1; and the
  first aggregation is the same chain applied to the product of the node features with W1. The sources, the
  targets and the coefficients of the messages are computed once, before the first region, from the edge
  list, and no later segment writes them; no segment writes an argument.

  The four regions' values enter as hypotheses (each: the region's output array is the specification's
  function of the region's two input arrays, whatever the contents the region is entered with), so this
  module is about the host side only.
-/
import proofs.«157684_j84559316124099_1_alg».proof.Proof.Gen.KernelIdeal.Frame
import proofs.«157684_j84559316124099_1_alg».proof.Proof.Chain
import proofs.«157684_j84559316124099_1_alg».proof.Proof.Spec
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Chain

/-! ## Each host stretch, from any contents W -/

section Stretches

variable {F : FTy → Type} [FloatOps F] (W : Valuation τ sig (Elt F))

set_option maxHeartbeats 4000000 in
/-- Before the first region: the messages' sources, from the edge list. -/
theorem prelude_src :
    StableHlo.after (hostOps0_2 (F := F)) (StableHlo.after hostOps0_1 (StableHlo.after hostOps0 W)) (Proc.devRef .tc main_v3)
      = srcT (W (Proc.devRef .tc main_arg1)) := by
  unfold hostOps0_2 hostOps0_1 hostOps0
  after_results_simp <;> rfl

set_option maxHeartbeats 4000000 in
/-- Before the first region: the messages' targets. -/
theorem prelude_dst :
    StableHlo.after (hostOps0_2 (F := F)) (StableHlo.after hostOps0_1 (StableHlo.after hostOps0 W)) (Proc.devRef .tc main_v6)
      = dstT (W (Proc.devRef .tc main_arg1)) := by
  unfold hostOps0_2 hostOps0_1 hostOps0
  after_results_simp <;> rfl

set_option maxHeartbeats 4000000 in
/-- Before the first region: the messages' coefficients. -/
theorem prelude_coef :
    StableHlo.after (hostOps0_2 (F := F)) (StableHlo.after hostOps0_1 (StableHlo.after hostOps0 W)) (Proc.devRef .tc main_v29)
      = coefT (srcT (W (Proc.devRef .tc main_arg1))) (dstT (W (Proc.devRef .tc main_arg1))) := by
  unfold hostOps0_2 hostOps0_1 hostOps0
  after_results_simp <;> rfl

set_option maxHeartbeats 4000000 in
/-- The operations before the first region write no argument. -/
theorem prelude_kept_args :
    StableHlo.after (hostOps0_2 (F := F)) (StableHlo.after hostOps0_1 (StableHlo.after hostOps0 W)) (Proc.devRef .tc main_arg0) = W (Proc.devRef .tc main_arg0)
    ∧ StableHlo.after (hostOps0_2 (F := F)) (StableHlo.after hostOps0_1 (StableHlo.after hostOps0 W)) (Proc.devRef .tc main_arg2) = W (Proc.devRef .tc main_arg2)
    ∧ StableHlo.after (hostOps0_2 (F := F)) (StableHlo.after hostOps0_1 (StableHlo.after hostOps0 W)) (Proc.devRef .tc main_arg3) = W (Proc.devRef .tc main_arg3)
    ∧ StableHlo.after (hostOps0_2 (F := F)) (StableHlo.after hostOps0_1 (StableHlo.after hostOps0 W)) (Proc.devRef .tc main_arg4) = W (Proc.devRef .tc main_arg4)
    ∧ StableHlo.after (hostOps0_2 (F := F)) (StableHlo.after hostOps0_1 (StableHlo.after hostOps0 W)) (Proc.devRef .tc main_arg5) = W (Proc.devRef .tc main_arg5) := by
  unfold hostOps0_2 hostOps0_1 hostOps0
  refine ⟨?_, ?_, ?_, ?_, ?_⟩ <;> (after_results_simp <;> rfl)

set_option maxHeartbeats 4000000 in
/-- Between the first two regions: the aggregation of the first product, and the first bias as a row. -/
theorem stretch1_agg :
    StableHlo.after (hostOps1 (F := F)) W (Proc.devRef .tc main_v43)
      = aggT (W (Proc.devRef .tc main_v30)) (W (Proc.devRef .tc main_v3)) (W (Proc.devRef .tc main_v6)) (W (Proc.devRef .tc main_v29)) := by
  unfold hostOps1
  after_results_simp <;> rfl

set_option maxHeartbeats 4000000 in
theorem stretch1_row :
    StableHlo.after (hostOps1 (F := F)) W (Proc.devRef .tc main_v44) = rowT (W (Proc.devRef .tc main_arg3)) := by
  unfold hostOps1
  after_results_simp <;> rfl

set_option maxHeartbeats 4000000 in
/-- That stretch writes neither the messages' data nor the later arguments. -/
theorem stretch1_kept :
    StableHlo.after (hostOps1 (F := F)) W (Proc.devRef .tc main_v3) = W (Proc.devRef .tc main_v3)
    ∧ StableHlo.after (hostOps1 (F := F)) W (Proc.devRef .tc main_v6) = W (Proc.devRef .tc main_v6)
    ∧ StableHlo.after (hostOps1 (F := F)) W (Proc.devRef .tc main_v29) = W (Proc.devRef .tc main_v29)
    ∧ StableHlo.after (hostOps1 (F := F)) W (Proc.devRef .tc main_arg4) = W (Proc.devRef .tc main_arg4)
    ∧ StableHlo.after (hostOps1 (F := F)) W (Proc.devRef .tc main_arg5) = W (Proc.devRef .tc main_arg5) := by
  unfold hostOps1
  refine ⟨?_, ?_, ?_, ?_, ?_⟩ <;> (after_results_simp <;> rfl)

set_option maxHeartbeats 4000000 in
/-- Before the last region: the aggregation of the second product, and the second bias as a row. -/
theorem stretch3_agg :
    StableHlo.after (hostOps3 (F := F)) W (Proc.devRef .tc main_v59)
      = aggT (W (Proc.devRef .tc main_v46)) (W (Proc.devRef .tc main_v3)) (W (Proc.devRef .tc main_v6)) (W (Proc.devRef .tc main_v29)) := by
  unfold hostOps3
  after_results_simp <;> rfl

set_option maxHeartbeats 4000000 in
theorem stretch3_row :
    StableHlo.after (hostOps3 (F := F)) W (Proc.devRef .tc main_v60) = rowT (W (Proc.devRef .tc main_arg5)) := by
  unfold hostOps3
  after_results_simp <;> rfl

end Stretches

/-! ## The buffer contents, boundary by boundary -/

section Levels

variable (m : (ℓ : Loc nD τ sig) → Buf (Elt Ideal) ℓ) (ρ : Dev nD → PrngReg)

/-- The messages' sources, targets and coefficients, from the launch contents of the edge list. -/
abbrev srcOf (c : Dev nD) := srcT (F := Ideal) (m ((c : Thread nD τ).loc main_arg1))
abbrev dstOf (c : Dev nD) := dstT (F := Ideal) (m ((c : Thread nD τ).loc main_arg1))
abbrev coefOf (c : Dev nD) := coefT (F := Ideal) (srcOf m c) (dstOf m c)

/-- The first layer's product, its aggregation, the hidden features, the second layer's product, its
    aggregation, and the result: the two layers of the convolution, of the launch contents of the arguments. -/
abbrev prod1 (c : Dev nD) := Cert.Spec.matProd (m ((c : Thread nD τ).loc main_arg0)) (m ((c : Thread nD τ).loc main_arg2))
abbrev agg1 (c : Dev nD) := aggT (F := Ideal) (prod1 m c) (srcOf m c) (dstOf m c) (coefOf m c)
abbrev hidden (c : Dev nD) := Cert.Spec.addRowRelu (agg1 m c) (rowT (F := Ideal) (m ((c : Thread nD τ).loc main_arg3)))
abbrev prod2 (c : Dev nD) := Cert.Spec.matProd (hidden m c) (m ((c : Thread nD τ).loc main_arg4))
abbrev agg2 (c : Dev nD) := aggT (F := Ideal) (prod2 m c) (srcOf m c) (dstOf m c) (coefOf m c)
abbrev result (c : Dev nD) := Cert.Spec.addRow (agg2 m c) (rowT (F := Ideal) (m ((c : Thread nD τ).loc main_arg5)))

variable (c : Dev nD)

/-! ### At the first region's entry -/

theorem at3_src : W3 m ρ c (Proc.devRef .tc main_v3) = srcOf m c := prelude_src (W0 m ρ c)
theorem at3_dst : W3 m ρ c (Proc.devRef .tc main_v6) = dstOf m c := prelude_dst (W0 m ρ c)
theorem at3_coef : W3 m ρ c (Proc.devRef .tc main_v29) = coefOf m c := prelude_coef (W0 m ρ c)
theorem at3_arg0 : W3 m ρ c (Proc.devRef .tc main_arg0) = m ((c : Thread nD τ).loc main_arg0) := (prelude_kept_args (W0 m ρ c)).1
theorem at3_arg2 : W3 m ρ c (Proc.devRef .tc main_arg2) = m ((c : Thread nD τ).loc main_arg2) := (prelude_kept_args (W0 m ρ c)).2.1
theorem at3_arg3 : W3 m ρ c (Proc.devRef .tc main_arg3) = m ((c : Thread nD τ).loc main_arg3) := (prelude_kept_args (W0 m ρ c)).2.2.1
theorem at3_arg4 : W3 m ρ c (Proc.devRef .tc main_arg4) = m ((c : Thread nD τ).loc main_arg4) := (prelude_kept_args (W0 m ρ c)).2.2.2.1
theorem at3_arg5 : W3 m ρ c (Proc.devRef .tc main_arg5) = m ((c : Thread nD τ).loc main_arg5) := (prelude_kept_args (W0 m ρ c)).2.2.2.2

/-! ### The regions' values, as hypotheses -/

variable (hR0 : ∀ (V : (c : Dev nD) → (b : Ref sig .tc) → Buf (Elt Ideal) ((c : Thread nD τ).loc b)) (c : Dev nD),
    (dat0 (F := Ideal) V c).arrAt 2 cfg0.N = Cert.Spec.matProd (V c main_arg0) (V c main_arg2))
variable (hR1 : ∀ (V : (c : Dev nD) → (b : Ref sig .tc) → Buf (Elt Ideal) ((c : Thread nD τ).loc b)) (c : Dev nD),
    (dat1 (F := Ideal) V c).arrAt 2 cfg1.N = Cert.Spec.addRowRelu (V c main_v43) (V c main_v44))
variable (hR2 : ∀ (V : (c : Dev nD) → (b : Ref sig .tc) → Buf (Elt Ideal) ((c : Thread nD τ).loc b)) (c : Dev nD),
    (dat2 (F := Ideal) V c).arrAt 2 cfg2.N = Cert.Spec.matProd (V c main_v45) (V c main_arg4))
variable (hR3 : ∀ (V : (c : Dev nD) → (b : Ref sig .tc) → Buf (Elt Ideal) ((c : Thread nD τ).loc b)) (c : Dev nD),
    (dat3 (F := Ideal) V c).arrAt 2 cfg3.N = Cert.Spec.addRow (V c main_v59) (V c main_v60))

/-! ### After the first matmul region -/

include hR0 in
theorem at4_prod : W4 m ρ c (Proc.devRef .tc main_v30) = prod1 m c :=
  (W4_arr m ρ c 2).trans ((hR0 (V3 m ρ) c).trans
    (congrArg₂ (Cert.Spec.matProd (M := 20000) (K := 128) (N := 256)) (at3_arg0 m ρ c) (at3_arg2 m ρ c)))
theorem at4_src : W4 m ρ c (Proc.devRef .tc main_v3) = srcOf m c := (W4_of_ne m ρ c main_v3 (by decide)).trans (at3_src m ρ c)
theorem at4_dst : W4 m ρ c (Proc.devRef .tc main_v6) = dstOf m c := (W4_of_ne m ρ c main_v6 (by decide)).trans (at3_dst m ρ c)
theorem at4_coef : W4 m ρ c (Proc.devRef .tc main_v29) = coefOf m c := (W4_of_ne m ρ c main_v29 (by decide)).trans (at3_coef m ρ c)
theorem at4_arg3 : W4 m ρ c (Proc.devRef .tc main_arg3) = m ((c : Thread nD τ).loc main_arg3) := (W4_of_ne m ρ c main_arg3 (by decide)).trans (at3_arg3 m ρ c)
theorem at4_arg4 : W4 m ρ c (Proc.devRef .tc main_arg4) = m ((c : Thread nD τ).loc main_arg4) := (W4_of_ne m ρ c main_arg4 (by decide)).trans (at3_arg4 m ρ c)
theorem at4_arg5 : W4 m ρ c (Proc.devRef .tc main_arg5) = m ((c : Thread nD τ).loc main_arg5) := (W4_of_ne m ρ c main_arg5 (by decide)).trans (at3_arg5 m ρ c)

/-! ### At the first bias region's entry -/

include hR0 in
theorem at5_agg : W5 m ρ c (Proc.devRef .tc main_v43) = agg1 m c := by
  refine (stretch1_agg (W4 m ρ c)).trans ?_
  rw [at4_prod m ρ c hR0, at4_src, at4_dst, at4_coef]
theorem at5_row : W5 m ρ c (Proc.devRef .tc main_v44) = rowT (F := Ideal) (m ((c : Thread nD τ).loc main_arg3)) := by
  refine (stretch1_row (W4 m ρ c)).trans ?_
  rw [at4_arg3]
theorem at5_src : W5 m ρ c (Proc.devRef .tc main_v3) = srcOf m c := (stretch1_kept (W4 m ρ c)).1.trans (at4_src m ρ c)
theorem at5_dst : W5 m ρ c (Proc.devRef .tc main_v6) = dstOf m c := (stretch1_kept (W4 m ρ c)).2.1.trans (at4_dst m ρ c)
theorem at5_coef : W5 m ρ c (Proc.devRef .tc main_v29) = coefOf m c := (stretch1_kept (W4 m ρ c)).2.2.1.trans (at4_coef m ρ c)
theorem at5_arg4 : W5 m ρ c (Proc.devRef .tc main_arg4) = m ((c : Thread nD τ).loc main_arg4) := (stretch1_kept (W4 m ρ c)).2.2.2.1.trans (at4_arg4 m ρ c)
theorem at5_arg5 : W5 m ρ c (Proc.devRef .tc main_arg5) = m ((c : Thread nD τ).loc main_arg5) := (stretch1_kept (W4 m ρ c)).2.2.2.2.trans (at4_arg5 m ρ c)

/-! ### After the first bias region -/

include hR0 hR1 in
theorem at6_hidden : W6 m ρ c (Proc.devRef .tc main_v45) = hidden m c :=
  (W6_arr m ρ c 2).trans ((hR1 (V5 m ρ) c).trans
    (congrArg₂ (Cert.Spec.addRowRelu (M := 20000) (N := 256)) (at5_agg m ρ c hR0) (at5_row m ρ c)))
theorem at6_src : W6 m ρ c (Proc.devRef .tc main_v3) = srcOf m c := (W6_of_ne m ρ c main_v3 (by decide)).trans (at5_src m ρ c)
theorem at6_dst : W6 m ρ c (Proc.devRef .tc main_v6) = dstOf m c := (W6_of_ne m ρ c main_v6 (by decide)).trans (at5_dst m ρ c)
theorem at6_coef : W6 m ρ c (Proc.devRef .tc main_v29) = coefOf m c := (W6_of_ne m ρ c main_v29 (by decide)).trans (at5_coef m ρ c)
theorem at6_arg4 : W6 m ρ c (Proc.devRef .tc main_arg4) = m ((c : Thread nD τ).loc main_arg4) := (W6_of_ne m ρ c main_arg4 (by decide)).trans (at5_arg4 m ρ c)
theorem at6_arg5 : W6 m ρ c (Proc.devRef .tc main_arg5) = m ((c : Thread nD τ).loc main_arg5) := (W6_of_ne m ρ c main_arg5 (by decide)).trans (at5_arg5 m ρ c)

/-! ### After the second matmul region -/

include hR0 hR1 hR2 in
theorem at7_prod : W7 m ρ c (Proc.devRef .tc main_v46) = prod2 m c :=
  (W7_arr m ρ c 2).trans ((hR2 (V6 m ρ) c).trans
    (congrArg₂ (Cert.Spec.matProd (M := 20000) (K := 256) (N := 256)) (at6_hidden m ρ c hR0 hR1) (at6_arg4 m ρ c)))
theorem at7_src : W7 m ρ c (Proc.devRef .tc main_v3) = srcOf m c := (W7_of_ne m ρ c main_v3 (by decide)).trans (at6_src m ρ c)
theorem at7_dst : W7 m ρ c (Proc.devRef .tc main_v6) = dstOf m c := (W7_of_ne m ρ c main_v6 (by decide)).trans (at6_dst m ρ c)
theorem at7_coef : W7 m ρ c (Proc.devRef .tc main_v29) = coefOf m c := (W7_of_ne m ρ c main_v29 (by decide)).trans (at6_coef m ρ c)
theorem at7_arg5 : W7 m ρ c (Proc.devRef .tc main_arg5) = m ((c : Thread nD τ).loc main_arg5) := (W7_of_ne m ρ c main_arg5 (by decide)).trans (at6_arg5 m ρ c)

/-! ### At the last region's entry, and the result -/

include hR0 hR1 hR2 in
theorem at8_agg : W8 m ρ c (Proc.devRef .tc main_v59) = agg2 m c := by
  refine (stretch3_agg (W7 m ρ c)).trans ?_
  rw [at7_prod m ρ c hR0 hR1 hR2, at7_src, at7_dst, at7_coef]
theorem at8_row : W8 m ρ c (Proc.devRef .tc main_v60) = rowT (F := Ideal) (m ((c : Thread nD τ).loc main_arg5)) := by
  refine (stretch3_row (W7 m ρ c)).trans ?_
  rw [at7_arg5]

include hR0 hR1 hR2 hR3 in
/-- The result buffer after the run: the two layers of the convolution, of the arguments' launch contents. -/
theorem result_value : W9 m ρ c (Proc.devRef .tc main_v61) = result m c :=
  (W9_arr m ρ c 2).trans ((hR3 (V8 m ρ) c).trans
    (congrArg₂ (Cert.Spec.addRow (M := 20000) (N := 256)) (at8_agg m ρ c hR0 hR1 hR2) (at8_row m ρ c)))

end Levels

end Cert.KernelIdeal.Fold

end
-- ==== Proof.RegionMatmul.lean ====
/-
  The two matrix products of the two-layer graph convolution, read off the blocks the pipeline writes back.

  Each product runs over a grid of ten points. At point t the body multiplies rows 2000 t … 2000 t + 1999 of the
  left matrix (the node features, 128 columns, in the first product; the hidden activations, 256 columns, in the
  second) with the whole right matrix (a layer's weights), and stores the 2000 × 256 block product. Over the extended
  reals the narrowing of the operands is the identity and the accumulator is the zero splat, so entry (p, q) of a block
  is the sum over the contracted index k of left (p, k) * right (k, q). A block's entry (p, q) at point t is the
  array's entry (2000 t + p, q); the weights' block is the weights. So point t writes back row block t of the matrix
  product of the two arrays, and since row r lies in the block of point r / 2000 the ten blocks tile the output, which
  therefore ends holding the matrix product. Both statements are for any contents of the buffers at the region's entry.
-/
import proofs.«157684_j84559316124099_1_alg».proof.Proof.Gen.KernelIdeal.Frame
import proofs.«157684_j84559316124099_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The first product: one block of 2000 rows -/

/-- The left operand's row coordinate, at an entry of the block product, is the entry's row. -/
theorem left_row_of_block0 (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column coordinate is the contracted index. -/
theorem left_col_of_block0 (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
/-- The right operand's row coordinate is the contracted index. -/
theorem right_row_of_block0 (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
/-- The right operand's column coordinate is the entry's column. -/
theorem right_col_of_block0 (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- What the body of the first product stores, at one entry (p, q) of its block: the narrowing of either operand
    is the identity over the extended reals and the accumulator is the zero splat, so the entry is the sum over the
    128 contracted indices k of x (p, k) * w (k, q). -/
theorem product_block0_apply (x : Vec Ideal S2000x128 .f32) (w : Vec Ideal S128x256 .f32) (j : S2000x256.Idx) :
    k0_pay1 (F := Ideal) x w j = ∑ k : Fin 128, x (ValueIdx.ix2 (j 0) k) * w (ValueIdx.ix2 k (j 1)) := by
  unfold k0_pay1
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = ValueIdx.ix2 (j 0) k := funext fun a => Fin.ext (by
    match a with
    | ⟨0, _⟩ => exact left_row_of_block0 _ _
    | ⟨1, _⟩ => exact (left_col_of_block0 _ _).trans hk)
  have er : dot_S2000x128_S128x256_S2000x256_1_0_0_1_n_n.rhsIdx j ((ValueIdx.contrEquiv1 dot_S2000x128_S128x256_S2000x256_1_0_0_1_n_n 128 rfl rfl).symm k) = ValueIdx.ix2 k (j 1) := funext fun a => Fin.ext (by
    match a with
    | ⟨0, _⟩ => exact (right_row_of_block0 _ _).trans hk
    | ⟨1, _⟩ => exact right_col_of_block0 _ _)
  rw [ValueIdx.truncf_apply, ValueIdx.truncf_apply, el, er]
  rfl

/-! ## The first product: from its ten row blocks to the whole array -/

/-- The offsets (0, 0) are the zero offsets. -/
theorem origin_offsets : (![0, 0] : Fin 2 → Nat) = fun _ => 0 :=
  funext fun a => by match a with | ⟨0, _⟩ => rfl | ⟨1, _⟩ => rfl

/-- Where the three blocks of the first product sit at grid point t: the node features' and the product's at row
    block t, column block 0; the weights', whole, at (0, 0). Decided over the ten points. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the node features' block at point t is the features' entry 2000 t rows further down. -/
theorem features_block0_apply (c : Dev nD) (t : Fin cfg0.N) (y : S2000x128.Idx) (i : S20000x128.Idx)
    (h0 : (i 0).val = 2000 * t.val + (y 0).val) (h1 : (i 1).val = (y 1).val) :
    (iblk0 V c 0 t : Vec Ideal S2000x128 .f32) y = (V c main_arg0 : S20000x128.Idx → Elt Ideal .f32) i := by
  obtain ⟨e0, e1, -, -, -, -⟩ := block_indices0 t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weights' block at any point is the weights: an entry of the block is the weights' entry at the same row and
    column. -/
theorem weights_block0_apply (c : Dev nD) (t : Fin cfg0.N) (y i : S128x256.Idx)
    (h0 : (i 0).val = (y 0).val) (h1 : (i 1).val = (y 1).val) :
    (iblk0 V c 1 t : Vec Ideal S128x256 .f32) y = (V c main_arg2 : S128x256.Idx → Elt Ideal .f32) i := by
  obtain ⟨-, -, e2, e3, -, -⟩ := block_indices0 t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 256 + 1 * (y 1).val = (i 1).val; rw [e3, h1]; omega

/-- What point t writes back is row block t of the product of the node features with the weights: entry (p, q) of
    the block is the sum over k of the features at (2000 t + p, k) times the weights at (k, q). -/
theorem written_back0 (c : Dev nD) (t : Fin cfg0.N) :
    (dat0 (F := Ideal) V c).flushed 2 t
      = ((cfg0.win 2).blk t).view.read (Elt Ideal) (Cert.Spec.matProd (V c main_arg0) (V c main_arg2)) := by
  show (cfg0.win 2).cut (grid0.coords t) ((dat0 V c).after 2 t) = _
  rw [after0_2]
  unfold out0_2
  rw [View.canon_unit_zero origin_offsets]
  simp only [View.ld_unit_zero (S := S2000x128) origin_offsets, View.ld_unit_zero (S := S128x256) origin_offsets]
  obtain ⟨-, -, -, -, e4, e5⟩ := block_indices0 t
  funext j
  show k0_pay1 (iblk0 V c 0 t) (iblk0 V c 1 t) j
    = Cert.Spec.matProd (V c main_arg0) (V c main_arg2) (((cfg0.win 2).blk t).view.emb j)
  refine (product_block0_apply _ _ j).trans ?_
  rw [Cert.Spec.matProd_apply]
  refine Finset.sum_congr rfl fun k _ => ?_
  have hrow : ((((cfg0.win 2).blk t).view.emb j) 0).val = 2000 * t.val + (j 0).val := by
    show win0_2.index t (0 : Fin 2) * 2000 + 1 * (j 0).val = _; rw [e4]; omega
  have hcol : ((((cfg0.win 2).blk t).view.emb j) 1).val = (j 1).val := by
    show win0_2.index t (1 : Fin 2) * 256 + 1 * (j 1).val = _; rw [e5]; omega
  rw [features_block0_apply V c t (ValueIdx.ix2 (j 0) k) (ValueIdx.ix2 ((((cfg0.win 2).blk t).view.emb j) 0) k) hrow rfl,
    weights_block0_apply V c t (ValueIdx.ix2 k (j 1)) (ValueIdx.ix2 k ((((cfg0.win 2).blk t).view.emb j) 1)) rfl hcol]

/-- An entry of the product is in point t's block iff, on each axis, its coordinate is in the block's range. -/
theorem mem_block0 (t : Fin cfg0.N) (i : S20000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v30).slice (win0_2.rect t)).set ↔ _
  rw [View.set_slice_whole, Rect.mem_set_unit]
  exact Iff.rfl

/-- The ten row blocks tile the product: row r lies in the block of point r / 2000, and every column in column block 0. -/
theorem blocks_cover0 (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨-, -, -, -, e4, e5⟩ := block_indices0 t
  refine ⟨t, flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 256 ≤ (i 1).val ∧ (i 1).val < win0_2.index t (1 : Fin 2) * 256 + 256
    rw [e5]; omega

/-- After its ten points have run, the first region's output array is the product of the node features with the
    first layer's weights: every point writes back its row block of that product, and the blocks tile the array. -/
theorem region0_value (c : Dev nD) :
    (dat0 (F := Ideal) V c).arrAt 2 cfg0.N = Cert.Spec.matProd (V c main_arg0) (V c main_arg2) :=
  (dat0 (F := Ideal) V c).arrAt_eq_of_cover 2 (Cert.Spec.matProd (V c main_arg0) (V c main_arg2))
    (fun t _ => written_back0 V c t) blocks_cover0

/-! ## The second product: one block of 2000 rows -/

/-- The left operand's row coordinate, at an entry of the block product, is the entry's row. -/
theorem left_row_of_block2 (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contracted index. -/
theorem left_col_of_block2 (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
/-- The right operand's row coordinate is the contracted index. -/
theorem right_row_of_block2 (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
/-- The right operand's column coordinate is the entry's column. -/
theorem right_col_of_block2 (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- What the body of the second product stores, at one entry (p, q) of its block: the reshaping of the left operand to
    its own shape and the narrowing of either operand are the identity over the extended reals, and the accumulator
    is the zero splat, so the entry is the sum over the 256 contracted indices k of h (p, k) * w (k, q). -/
theorem product_block2_apply (h : Vec Ideal S2000x256 .f32) (w : Vec Ideal S256x256 .f32) (j : S2000x256.Idx) :
    k2_pay1 (F := Ideal) h w j = ∑ k : Fin 256, h (ValueIdx.ix2 (j 0) k) * w (ValueIdx.ix2 k (j 1)) := by
  unfold k2_pay1
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = ValueIdx.ix2 (j 0) k := funext fun a => Fin.ext (by
    match a with
    | ⟨0, _⟩ => exact left_row_of_block2 _ _
    | ⟨1, _⟩ => exact (left_col_of_block2 _ _).trans hk)
  have er : dot_S2000x256_S256x256_S2000x256_1_0_0_1_n_n.rhsIdx j ((ValueIdx.contrEquiv1 dot_S2000x256_S256x256_S2000x256_1_0_0_1_n_n 256 rfl rfl).symm k) = ValueIdx.ix2 k (j 1) := funext fun a => Fin.ext (by
    match a with
    | ⟨0, _⟩ => exact (right_row_of_block2 _ _).trans hk
    | ⟨1, _⟩ => exact right_col_of_block2 _ _)
  rw [ValueIdx.truncf_apply, ValueIdx.truncf_apply, shapeCast_self, el, er]
  rfl

/-! ## The second product: from its ten row blocks to the whole array -/

/-- Where the three blocks of the second product sit at grid point t: the hidden activations' and the product's at
    row block t, column block 0; the second layer's weights', whole, at (0, 0). Decided over the ten points. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the hidden activations' block at point t is the activations' entry 2000 t rows further down. -/
theorem hidden_block2_apply (c : Dev nD) (t : Fin cfg2.N) (y : S2000x256.Idx) (i : S20000x256.Idx)
    (h0 : (i 0).val = 2000 * t.val + (y 0).val) (h1 : (i 1).val = (y 1).val) :
    (iblk2 V c 0 t : Vec Ideal S2000x256 .f32) y = (V c main_v45 : S20000x256.Idx → Elt Ideal .f32) i := by
  obtain ⟨e0, e1, -, -, -, -⟩ := block_indices2 t
  unfold iblk2
  rw [View.read_apply]
  show V c main_v45 _ = V c main_v45 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- The second layer's weights' block at any point is those weights: an entry of the block is the weights' entry at
    the same row and column. -/
theorem weights_block2_apply (c : Dev nD) (t : Fin cfg2.N) (y i : S256x256.Idx)
    (h0 : (i 0).val = (y 0).val) (h1 : (i 1).val = (y 1).val) :
    (iblk2 V c 1 t : Vec Ideal S256x256 .f32) y = (V c main_arg4 : S256x256.Idx → Elt Ideal .f32) i := by
  obtain ⟨-, -, e2, e3, -, -⟩ := block_indices2 t
  unfold iblk2
  rw [View.read_apply]
  show V c main_arg4 _ = V c main_arg4 _
  congr 1
  funext a
  apply Fin.ext
  match a with
  | ⟨0, _⟩ => show win2_1.index t (0 : Fin 2) * 256 + 1 * (y 0).val = (i 0).val; rw [e2, h0]; omega
  | ⟨1, _⟩ => show win2_1.index t (1 : Fin 2) * 256 + 1 * (y 1).val = (i 1).val; rw [e3, h1]; omega

/-- What point t writes back is row block t of the product of the hidden activations with the second layer's weights:
    entry (p, q) of the block is the sum over k of the activations at (2000 t + p, k) times the weights at (k, q). -/
theorem written_back2 (c : Dev nD) (t : Fin cfg2.N) :
    (dat2 (F := Ideal) V c).flushed 2 t
      = ((cfg2.win 2).blk t).view.read (Elt Ideal) (Cert.Spec.matProd (V c main_v45) (V c main_arg4)) := by
  show (cfg2.win 2).cut (grid2.coords t) ((dat2 V c).after 2 t) = _
  rw [after2_2]
  unfold out2_2
  rw [View.canon_unit_zero origin_offsets]
  simp only [View.ld_unit_zero (S := S2000x256) origin_offsets, View.ld_unit_zero (S := S256x256) origin_offsets]
  obtain ⟨-, -, -, -, e4, e5⟩ := block_indices2 t
  funext j
  show k2_pay1 (iblk2 V c 0 t) (iblk2 V c 1 t) j
    = Cert.Spec.matProd (V c main_v45) (V c main_arg4) (((cfg2.win 2).blk t).view.emb j)
  refine (product_block2_apply _ _ j).trans ?_
  rw [Cert.Spec.matProd_apply]
  refine Finset.sum_congr rfl fun k _ => ?_
  have hrow : ((((cfg2.win 2).blk t).view.emb j) 0).val = 2000 * t.val + (j 0).val := by
    show win2_2.index t (0 : Fin 2) * 2000 + 1 * (j 0).val = _; rw [e4]; omega
  have hcol : ((((cfg2.win 2).blk t).view.emb j) 1).val = (j 1).val := by
    show win2_2.index t (1 : Fin 2) * 256 + 1 * (j 1).val = _; rw [e5]; omega
  rw [hidden_block2_apply V c t (ValueIdx.ix2 (j 0) k) (ValueIdx.ix2 ((((cfg2.win 2).blk t).view.emb j) 0) k) hrow rfl,
    weights_block2_apply V c t (ValueIdx.ix2 k (j 1)) (ValueIdx.ix2 k ((((cfg2.win 2).blk t).view.emb j) 1)) rfl hcol]

/-- An entry of the second product is in point t's block iff, on each axis, its coordinate is in the block's range. -/
theorem mem_block2 (t : Fin cfg2.N) (i : S20000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v46).slice (win2_2.rect t)).set ↔ _
  rw [View.set_slice_whole, Rect.mem_set_unit]
  exact Iff.rfl

/-- The ten row blocks tile the second product: row r lies in the block of point r / 2000, and every column in column
    block 0. -/
theorem blocks_cover2 (i : S20000x256.Idx) :
    ∃ t : Fin cfg2.N, (cfg2.win 2).flush t = true ∧ i ∈ ((cfg2.win 2).blk t).view.set := by
  have hi0 : (i 0).val < 20000 := (i 0).isLt
  have hi1 : (i 1).val < 256 := (i 1).isLt
  have hN : cfg2.N = 10 := N_2
  obtain ⟨t, ht⟩ : ∃ t : Fin cfg2.N, t.val = (i 0).val / 2000 := ⟨⟨(i 0).val / 2000, by rw [hN]; omega⟩, rfl⟩
  obtain ⟨-, -, -, -, e4, e5⟩ := block_indices2 t
  refine ⟨t, flush2_2 t, ?_⟩
  rw [mem_block2]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 256 ≤ (i 1).val ∧ (i 1).val < win2_2.index t (1 : Fin 2) * 256 + 256
    rw [e5]; omega

/-- After its ten points have run, the third region's output array is the product of the hidden activations with the
    second layer's weights: every point writes back its row block of that product, and the blocks tile the array. -/
theorem region2_value (c : Dev nD) :
    (dat2 (F := Ideal) V c).arrAt 2 cfg2.N = Cert.Spec.matProd (V c main_v45) (V c main_arg4) :=
  (dat2 (F := Ideal) V c).arrAt_eq_of_cover 2 (Cert.Spec.matProd (V c main_v45) (V c main_arg4))
    (fun t _ => written_back2 V c t) blocks_cover2

end Cert.KernelIdeal.Hand

end
-- ==== Proof.RegionBias.lean ====
/-
  The two bias regions of the two-layer graph convolution, as functions of their input arrays.

  Region 1 takes a matrix A of 20000 rows and 256 columns and a bias row b of 256 entries and leaves, in its
  output array, max (A (r, q) + b (0, q)) 0 at every entry (r, q); region 3 does the same without the maximum.
  Both walk the rows in 10 blocks of 2000: at grid point t the body sees rows 2000 t to 2000 t + 1999 of A,
  all 256 columns, and the whole bias row, and writes the same rows of the output. The proof of each region
  has three steps: the body's value at one entry of a block; what point t writes back is block t of the
  specification's matrix, because entry (p, q) of block t is entry (2000 t + p, q) of the array and the bias
  row is read at (0, q) whatever t is; and every row r lies in the block of point r / 2000, so the ten blocks
  cover the array and the array ends holding the specification's matrix. Everything is stated at any contents
  V of the buffers when the region is entered.
-/
import proofs.«157684_j84559316124099_1_alg».proof.Proof.Gen.KernelIdeal.Frame
import proofs.«157684_j84559316124099_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- A whole-block load or store starts at offset zero on both axes. -/
theorem biasBlock_zero_offsets : (![0, 0] : Fin 2 → Nat) = fun _ => 0 :=
  funext fun a => match a with | ⟨0, _⟩ => rfl | ⟨1, _⟩ => rfl

/-! ## Region 1: the bias row added to every row, then the positive part -/

/-- The body's value at row p, column q of a block: the block's entry plus the bias row's entry in column q, then
    the maximum with zero. The two shape casts keep the shape, the one-row matrix is repeated down the 2000
    rows, and the zero word is the number zero. -/
theorem biasRelu_entry (x0 : Vec Ideal S2000x256 .f32) (x1 : Vec Ideal S1x256 .f32) (p : Fin 2000) (q : Fin 256) :
    k1_pay1 (F := Ideal) x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  exact congrArg (max (x0 (ix2 p q) + x1 (ix2 (0 : Fin 1) q))) Idealize.ShloMosaic.Ideal.ofBits_zero_f32

/-- The same at any index j of the block: the bias row is read in j's column. -/
theorem biasRelu_at (x0 : Vec Ideal S2000x256 .f32) (x1 : Vec Ideal S1x256 .f32) (j : S2000x256.Idx) :
    k1_pay1 (F := Ideal) x0 x1 j = max (x0 j + x1 (ix2 (0 : Fin 1) (j 1))) 0 := by
  obtain ⟨p, q, rfl⟩ : ∃ (p : Fin 2000) (q : Fin 256), j = ix2 p q := ⟨j 0, j 1, eq_ix2 j⟩
  exact biasRelu_entry x0 x1 p q

/-- The block indices of region 1's three windows at grid point t: the input matrix and the output are at row
    block t, column block 0; the bias row is at block (0, 0) whatever t is. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the specification's matrix. Entry j of the output block is
    entry (2000 t + j 0, j 1) of the array; the input block's entry j is the input matrix at that same place,
    and the bias block's entry (0, j 1) is the bias row at (0, j 1). -/
theorem region1_flushed (c : Dev nD) (t : Fin cfg1.N) :
    (dat1 (F := Ideal) V c).flushed 2 t
      = ((cfg1.win 2).blk t).view.read (Elt Ideal) (Cert.Spec.addRowRelu (V c main_v43) (V c main_v44)) := by
  show (cfg1.win 2).cut (grid1.coords t) ((dat1 V c).after 2 t) = _
  rw [after1_2]
  unfold out1_2
  rw [View.canon_unit_zero biasBlock_zero_offsets]
  simp only [View.ld_unit_zero (S := S2000x256) biasBlock_zero_offsets, View.ld_unit_zero (S := S1x256) biasBlock_zero_offsets]
  obtain ⟨e00, e01, e10, e11, e20, e21⟩ := block_indices1 t
  funext j
  show k1_pay1 (F := Ideal) (iblk1 V c 0 t) (iblk1 V c 1 t) j
      = Cert.Spec.addRowRelu (V c main_v43) (V c main_v44) (((cfg1.win 2).blk t).view.emb j)
  refine (biasRelu_at (iblk1 V c 0 t) (iblk1 V c 1 t) j).trans ?_
  rw [Cert.Spec.addRowRelu_apply]
  -- the input block's entry j is the input matrix where the output block's entry j lands
  have hA : iblk1 V c 0 t j = V c main_v43 (((cfg1.win 2).blk t).view.emb j) := by
    show V c main_v43 (((cfg1.win 0).blk t).view.emb j) = _
    refine congrArg (V c main_v43) (funext fun ax => Fin.ext ?_)
    match ax with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 256 + 1 * (j 1).val = win1_2.index t (1 : Fin 2) * 256 + 1 * (j 1).val
      omega
  -- the bias block is the whole row: its entry (0, j 1) is the row at (0, column of where entry j lands)
  have hb : iblk1 V c 1 t (ix2 (0 : Fin 1) (j 1))
      = V c main_v44 (ix2 (0 : Fin 1) ((((cfg1.win 2).blk t).view.emb j) 1)) := by
    show V c main_v44 (((cfg1.win 1).blk t).view.emb (ix2 (0 : Fin 1) (j 1))) = _
    refine congrArg (V c main_v44) (funext fun ax => Fin.ext ?_)
    match ax with
    | ⟨0, _⟩ =>
      show win1_1.index t (0 : Fin 2) * 1 + 1 * 0 = 0
      omega
    | ⟨1, _⟩ =>
      show win1_1.index t (1 : Fin 2) * 256 + 1 * (j 1).val = win1_2.index t (1 : Fin 2) * 256 + 1 * (j 1).val
      omega
  rw [hA, hb]

/-- An entry of the output array is in point t's block exactly when each coordinate is in the block's range. -/
theorem mem_block1 (t : Fin cfg1.N) (i : S20000x256.Idx) :
    i ∈ ((cfg1.win 2).blk t).view.set ↔ ∀ ax : Fin 2, win1_2.index t ax * S2000x256.size ax ≤ (i ax).val
      ∧ (i ax).val < win1_2.index t ax * S2000x256.size ax + S2000x256.size ax := by
  show i ∈ ((View.whole main_v45).slice (win1_2.rect t)).set ↔ _
  rw [View.set_slice_whole, Rect.mem_set_unit]
  exact Iff.rfl

/-- Every entry (r, q) of the output array lies in the block of grid point r / 2000, which writes back. -/
theorem region1_cover (i : S20000x256.Idx) :
    ∃ t : Fin cfg1.N, (cfg1.win 2).flush t = true ∧ i ∈ ((cfg1.win 2).blk t).view.set := by
  have hr : (i 0).val < 20000 := (i 0).isLt
  have hq : (i 1).val < 256 := (i 1).isLt
  have hN : grid1.N = 10 := N_1
  have ht : (i 0).val / 2000 < cfg1.N := by show (i 0).val / 2000 < grid1.N; omega
  obtain ⟨-, -, -, -, e20, e21⟩ := block_indices1 ⟨(i 0).val / 2000, ht⟩
  refine ⟨⟨(i 0).val / 2000, ht⟩, flush1_2 _, ?_⟩
  rw [mem_block1]
  intro ax
  match ax with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    have e : win1_2.index ⟨(i 0).val / 2000, ht⟩ (0 : Fin 2) = (i 0).val / 2000 := e20
    omega
  | ⟨1, _⟩ =>
    show win1_2.index ⟨(i 0).val / 2000, ht⟩ (1 : Fin 2) * 256 ≤ (i 1).val
      ∧ (i 1).val < win1_2.index ⟨(i 0).val / 2000, ht⟩ (1 : Fin 2) * 256 + 256
    omega

/-- REGION 1's output array after the ten points have run: the specification's matrix, at any entry contents. -/
theorem region1_value (c : Dev nD) :
    (dat1 (F := Ideal) V c).arrAt 2 cfg1.N = Cert.Spec.addRowRelu (V c main_v43) (V c main_v44) :=
  (dat1 (F := Ideal) V c).arrAt_eq_of_cover 2 (Cert.Spec.addRowRelu (V c main_v43) (V c main_v44))
    (fun t _ => region1_flushed V c t) (fun i => region1_cover i)

/-! ## Region 3: the bias row added to every row -/

/-- The body's value at row p, column q of a block: the block's entry plus the bias row's entry in column q. The
    two shape casts keep the shape and the one-row matrix is repeated down the 2000 rows. -/
theorem bias_entry (x0 : Vec Ideal S2000x256 .f32) (x1 : Vec Ideal S1x256 .f32) (p : Fin 2000) (q : Fin 256) :
    k3_pay1 (F := Ideal) x0 x1 (ix2 p q) = x0 (ix2 p q) + x1 (ix2 (0 : Fin 1) q) := by
  unfold k3_pay1
  rw [addf_apply, shapeCast_self, shapeCast_self, broadcastTo_1b_ab_apply]

/-- The same at any index j of the block: the bias row is read in j's column. -/
theorem bias_at (x0 : Vec Ideal S2000x256 .f32) (x1 : Vec Ideal S1x256 .f32) (j : S2000x256.Idx) :
    k3_pay1 (F := Ideal) x0 x1 j = x0 j + x1 (ix2 (0 : Fin 1) (j 1)) := by
  obtain ⟨p, q, rfl⟩ : ∃ (p : Fin 2000) (q : Fin 256), j = ix2 p q := ⟨j 0, j 1, eq_ix2 j⟩
  exact bias_entry x0 x1 p q

/-- The block indices of region 3's three windows at grid point t: the input matrix and the output are at row
    block t, column block 0; the bias row is at block (0, 0) whatever t is. -/
theorem block_indices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the specification's matrix. Entry j of the output block is
    entry (2000 t + j 0, j 1) of the array; the input block's entry j is the input matrix at that same place,
    and the bias block's entry (0, j 1) is the bias row at (0, j 1). -/
theorem region3_flushed (c : Dev nD) (t : Fin cfg3.N) :
    (dat3 (F := Ideal) V c).flushed 2 t
      = ((cfg3.win 2).blk t).view.read (Elt Ideal) (Cert.Spec.addRow (V c main_v59) (V c main_v60)) := by
  show (cfg3.win 2).cut (grid3.coords t) ((dat3 V c).after 2 t) = _
  rw [after3_2]
  unfold out3_2
  rw [View.canon_unit_zero biasBlock_zero_offsets]
  simp only [View.ld_unit_zero (S := S2000x256) biasBlock_zero_offsets, View.ld_unit_zero (S := S1x256) biasBlock_zero_offsets]
  obtain ⟨e00, e01, e10, e11, e20, e21⟩ := block_indices3 t
  funext j
  show k3_pay1 (F := Ideal) (iblk3 V c 0 t) (iblk3 V c 1 t) j
      = Cert.Spec.addRow (V c main_v59) (V c main_v60) (((cfg3.win 2).blk t).view.emb j)
  refine (bias_at (iblk3 V c 0 t) (iblk3 V c 1 t) j).trans ?_
  rw [Cert.Spec.addRow_apply]
  -- the input block's entry j is the input matrix where the output block's entry j lands
  have hA : iblk3 V c 0 t j = V c main_v59 (((cfg3.win 2).blk t).view.emb j) := by
    show V c main_v59 (((cfg3.win 0).blk t).view.emb j) = _
    refine congrArg (V c main_v59) (funext fun ax => Fin.ext ?_)
    match ax with
    | ⟨0, _⟩ =>
      show win3_0.index t (0 : Fin 2) * 2000 + 1 * (j 0).val = win3_2.index t (0 : Fin 2) * 2000 + 1 * (j 0).val
      omega
    | ⟨1, _⟩ =>
      show win3_0.index t (1 : Fin 2) * 256 + 1 * (j 1).val = win3_2.index t (1 : Fin 2) * 256 + 1 * (j 1).val
      omega
  -- the bias block is the whole row: its entry (0, j 1) is the row at (0, column of where entry j lands)
  have hb : iblk3 V c 1 t (ix2 (0 : Fin 1) (j 1))
      = V c main_v60 (ix2 (0 : Fin 1) ((((cfg3.win 2).blk t).view.emb j) 1)) := by
    show V c main_v60 (((cfg3.win 1).blk t).view.emb (ix2 (0 : Fin 1) (j 1))) = _
    refine congrArg (V c main_v60) (funext fun ax => Fin.ext ?_)
    match ax with
    | ⟨0, _⟩ =>
      show win3_1.index t (0 : Fin 2) * 1 + 1 * 0 = 0
      omega
    | ⟨1, _⟩ =>
      show win3_1.index t (1 : Fin 2) * 256 + 1 * (j 1).val = win3_2.index t (1 : Fin 2) * 256 + 1 * (j 1).val
      omega
  rw [hA, hb]

/-- An entry of the output array is in point t's block exactly when each coordinate is in the block's range. -/
theorem mem_block3 (t : Fin cfg3.N) (i : S20000x256.Idx) :
    i ∈ ((cfg3.win 2).blk t).view.set ↔ ∀ ax : Fin 2, win3_2.index t ax * S2000x256.size ax ≤ (i ax).val
      ∧ (i ax).val < win3_2.index t ax * S2000x256.size ax + S2000x256.size ax := by
  show i ∈ ((View.whole main_v61).slice (win3_2.rect t)).set ↔ _
  rw [View.set_slice_whole, Rect.mem_set_unit]
  exact Iff.rfl

/-- Every entry (r, q) of the output array lies in the block of grid point r / 2000, which writes back. -/
theorem region3_cover (i : S20000x256.Idx) :
    ∃ t : Fin cfg3.N, (cfg3.win 2).flush t = true ∧ i ∈ ((cfg3.win 2).blk t).view.set := by
  have hr : (i 0).val < 20000 := (i 0).isLt
  have hq : (i 1).val < 256 := (i 1).isLt
  have hN : grid3.N = 10 := N_3
  have ht : (i 0).val / 2000 < cfg3.N := by show (i 0).val / 2000 < grid3.N; omega
  obtain ⟨-, -, -, -, e20, e21⟩ := block_indices3 ⟨(i 0).val / 2000, ht⟩
  refine ⟨⟨(i 0).val / 2000, ht⟩, flush3_2 _, ?_⟩
  rw [mem_block3]
  intro ax
  match ax with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    have e : win3_2.index ⟨(i 0).val / 2000, ht⟩ (0 : Fin 2) = (i 0).val / 2000 := e20
    omega
  | ⟨1, _⟩ =>
    show win3_2.index ⟨(i 0).val / 2000, ht⟩ (1 : Fin 2) * 256 ≤ (i 1).val
      ∧ (i 1).val < win3_2.index ⟨(i 0).val / 2000, ht⟩ (1 : Fin 2) * 256 + 256
    omega

/-- REGION 3's output array after the ten points have run: the specification's matrix, at any entry contents. -/
theorem region3_value (c : Dev nD) :
    (dat3 (F := Ideal) V c).arrAt 2 cfg3.N = Cert.Spec.addRow (V c main_v59) (V c main_v60) :=
  (dat3 (F := Ideal) V c).arrAt_eq_of_cover 2 (Cert.Spec.addRow (V c main_v59) (V c main_v60))
    (fun t _ => region3_flushed V c t) (fun i => region3_cover i)

end Cert.KernelIdeal.Hand

end
-- ==== Proof.Layers.lean ====
/-
  The two-layer graph convolution as one function of its six arguments, over the extended reals:
  the node features x, the edge list e, and each layer's weights and bias. With s, d and n the sources,
  the targets and the coefficients of the messages (Chain.lean),

      layers x e W1 b1 W2 b2 = agg (relu (agg (x W1) + b1) W2) + b2,

  where agg h = aggT h s d n, the products and the bias rows are the specification's entrywise functions
  (Spec.lean), and a bias enters as a one-row matrix.
-/
import proofs.«157684_j84559316124099_1_alg».proof.Proof.Chain
import proofs.«157684_j84559316124099_1_alg».proof.Proof.Spec

noncomputable section

namespace Cert.KernelIdeal.Layers

open Cert.KernelIdeal Cert.KernelIdeal.Gen Cert.KernelIdeal.Chain Idealize.ShloMosaic Idealize.ShloMosaic.TcCoe

/-- The network's result from its arguments. -/
def layers (x : (⟨S20000x128, .f32⟩ : BufTy).Contents (Elt Ideal)) (e : (⟨S2x320000, .i32⟩ : BufTy).Contents (Elt Ideal))
    (w1 : (⟨S128x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) :
    (⟨S20000x256, .f32⟩ : BufTy).Contents (Elt Ideal) :=
  Cert.Spec.addRow
    (aggT (F := Ideal)
      (Cert.Spec.matProd
        (Cert.Spec.addRowRelu
          (aggT (F := Ideal) (Cert.Spec.matProd x w1) (srcT e) (dstT e) (coefT (srcT e) (dstT e)))
          (rowT (F := Ideal) b1))
        w2)
      (srcT e) (dstT e) (coefT (srcT e) (dstT e)))
    (rowT (F := Ideal) b2)

end Cert.KernelIdeal.Layers

end
-- ==== Proof.RefFold.lean ====
/-
  The reference's composed term is the two-layer graph convolution (Layers.lean) of its arguments.

  Two steps. First, over any float family: the term the reference's run states for its result is, read
  with the shared host chain folded (Chain.lean: the sources, targets and coefficients of the messages, and
  the aggregation of a matrix), the chain applied twice around the reference's four dense operations: a
  host product with W1, the bias b1 broadcast down the rows and added, the maximum with the zero matrix,
  a host product with W2, and the bias b2 added. The operations are the same on both sides, so this is an
  identity of terms. Second, over the extended reals, each dense operation is the specification's entrywise
  function: a host product at entry (p, q) is the sum over k of left (p, k) times right (k, q); a vector
  broadcast to one row and then down 20000 rows is read in the entry's column, which is where the one-row
  reshaping of the same vector is read; the zero word is the number zero.
-/
import proofs.«157684_j84559316124099_1_alg».proof.Proof.RefRun
import proofs.«157684_j84559316124099_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.ReferenceIdeal.Dense

open Cert.ReferenceIdeal Cert.ReferenceIdeal.Gen Idealize.ShloMosaic Idealize.ShloMosaic.TcCoe Idealize.SL.Sem

/-! ## The reference's term with the shared chain folded -/

section Shape

variable {F : FTy → Type} [FloatOps F]

/-- The reference's result as the shared chain around its own four dense operations. -/
def refShape (x : (⟨S20000x128, .f32⟩ : BufTy).Contents (Elt F)) (e : (⟨S2x320000, .i32⟩ : BufTy).Contents (Elt F))
    (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S20000x256, .f32⟩ : BufTy).Contents (Elt F) :=
  addf
    (Cert.KernelIdeal.Chain.aggT (F := F)
      (Host.dotGeneral dot_S20000x256_S256x256_S20000x256_1_0_0_1_n_n none
        (maximumf
          (addf
            (Cert.KernelIdeal.Chain.aggT (F := F) (Host.dotGeneral dot_S20000x128_S128x256_S20000x256_1_0_0_1_n_n none x w1)
              (Cert.KernelIdeal.Chain.srcT e) (Cert.KernelIdeal.Chain.dstT e)
              (Cert.KernelIdeal.Chain.coefT (Cert.KernelIdeal.Chain.srcT e) (Cert.KernelIdeal.Chain.dstT e)))
            (broadcastInDim S20000x256 ![0, 1] bcast_S1x256_S20000x256_0_1 (broadcastInDim S1x256 ![1] bcast_S256_S1x256_1 b1)))
          (broadcastInDim S20000x256 ![] bcast_S_S20000x256 (constant S_ .f32 0x00000000#32)))
        w2)
      (Cert.KernelIdeal.Chain.srcT e) (Cert.KernelIdeal.Chain.dstT e)
      (Cert.KernelIdeal.Chain.coefT (Cert.KernelIdeal.Chain.srcT e) (Cert.KernelIdeal.Chain.dstT e)))
    (broadcastInDim S20000x256 ![0, 1] bcast_S1x256_S20000x256_0_1 (broadcastInDim S1x256 ![1] bcast_S256_S1x256_1 b2))

set_option maxHeartbeats 4000000 in
/-- The term the reference's run states is that. -/
theorem res_eq_refShape (m : (ℓ : Loc nD τ sig) → Buf (Elt F) ℓ) (c : Dev nD) :
    Cert.ReferenceIdeal.RunP.res_main_v64 (F := F) m c
      = refShape (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v64 refShape Cert.KernelIdeal.Chain.aggT Cert.KernelIdeal.Chain.coefT
    Cert.KernelIdeal.Chain.weightT Cert.KernelIdeal.Chain.degT Cert.KernelIdeal.Chain.rowsT
    Cert.KernelIdeal.Chain.srcT Cert.KernelIdeal.Chain.dstT
  rfl

end Shape

/-! ## The dense operations over the extended reals -/

/-! ### The product x W1 -/

theorem lhs1_0 (i : S20000x256.Idx) (q : dot_S20000x128_S128x256_S20000x256_1_0_0_1_n_n.contr.Idx) :
    (dot_S20000x128_S128x256_S20000x256_1_0_0_1_n_n.lhsIdx i q 0).val = (i 0).val := by
  unfold DotDims.lhsIdx
  rw [dif_neg (show ¬(0 : Fin S20000x128.rank) ∈ dot_S20000x128_S128x256_S20000x256_1_0_0_1_n_n.lhsBatch by decide), dif_pos (show (0 : Fin S20000x128.rank) ∈ dot_S20000x128_S128x256_S20000x256_1_0_0_1_n_n.lhsNonContracting by decide)]
  rfl
theorem lhs1_1 (i : S20000x256.Idx) (q : dot_S20000x128_S128x256_S20000x256_1_0_0_1_n_n.contr.Idx) :
    (dot_S20000x128_S128x256_S20000x256_1_0_0_1_n_n.lhsIdx i q 1).val = (q ⟨0, by decide⟩).val :=
  dot_S20000x128_S128x256_S20000x256_1_0_0_1_n_n.lhsIdx_val_of_single rfl i q
theorem rhs1_0 (i : S20000x256.Idx) (q : dot_S20000x128_S128x256_S20000x256_1_0_0_1_n_n.contr.Idx) :
    (dot_S20000x128_S128x256_S20000x256_1_0_0_1_n_n.rhsIdx i q 0).val = (q ⟨0, by decide⟩).val :=
  dot_S20000x128_S128x256_S20000x256_1_0_0_1_n_n.rhsIdx_val_of_single rfl i q
theorem rhs1_1 (i : S20000x256.Idx) (q : dot_S20000x128_S128x256_S20000x256_1_0_0_1_n_n.contr.Idx) :
    (dot_S20000x128_S128x256_S20000x256_1_0_0_1_n_n.rhsIdx i q 1).val = (i 1).val := by
  unfold DotDims.rhsIdx
  rw [dif_neg (show ¬(1 : Fin S128x256.rank) ∈ dot_S20000x128_S128x256_S20000x256_1_0_0_1_n_n.rhsBatch by decide), dif_pos (show (1 : Fin S128x256.rank) ∈ dot_S20000x128_S128x256_S20000x256_1_0_0_1_n_n.rhsNonContracting by decide)]
  rfl

/-- The host's product of a [20000, 128] matrix with a [128, 256] matrix is the specification's: at entry (p, q)
    the sum over the contracted index k of the left matrix at (p, k) times the right at (k, q). -/
theorem dot1_eq (X : FVec Ideal S20000x128 .f32) (Wt : FVec Ideal S128x256 .f32) :
    Host.dotGeneral dot_S20000x128_S128x256_S20000x256_1_0_0_1_n_n none X Wt = Cert.Spec.matProd X Wt := by
  funext i
  simp only [Host.dotGeneral]
  rw [Ideal.dotGeneral_apply, ← Equiv.sum_comp (ValueIdx.contrEquiv1 dot_S20000x128_S128x256_S20000x256_1_0_0_1_n_n 128 rfl rfl).symm]
  show _ = ∑ k : Fin 128, X (ValueIdx.ix2 (i 0) k) * Wt (ValueIdx.ix2 k (i 1))
  refine Finset.sum_congr rfl fun k _ => ?_
  have hk := ValueIdx.contrEquiv1_symm_val dot_S20000x128_S128x256_S20000x256_1_0_0_1_n_n 128 rfl rfl k
  have el : dot_S20000x128_S128x256_S20000x256_1_0_0_1_n_n.lhsIdx i ((ValueIdx.contrEquiv1 dot_S20000x128_S128x256_S20000x256_1_0_0_1_n_n 128 rfl rfl).symm k) = ValueIdx.ix2 (i 0) k := funext fun a => Fin.ext (by
    match a with
    | ⟨0, _⟩ => exact lhs1_0 _ _
    | ⟨1, _⟩ => exact (lhs1_1 _ _).trans hk)
  have er : dot_S20000x128_S128x256_S20000x256_1_0_0_1_n_n.rhsIdx i ((ValueIdx.contrEquiv1 dot_S20000x128_S128x256_S20000x256_1_0_0_1_n_n 128 rfl rfl).symm k) = ValueIdx.ix2 k (i 1) := funext fun a => Fin.ext (by
    match a with
    | ⟨0, _⟩ => exact (rhs1_0 _ _).trans hk
    | ⟨1, _⟩ => exact rhs1_1 _ _)
  rw [el, er]
  rfl

/-! ### The product h W2 -/

theorem lhs2_0 (i : S20000x256.Idx) (q : dot_S20000x256_S256x256_S20000x256_1_0_0_1_n_n.contr.Idx) :
    (dot_S20000x256_S256x256_S20000x256_1_0_0_1_n_n.lhsIdx i q 0).val = (i 0).val := by
  unfold DotDims.lhsIdx
  rw [dif_neg (show ¬(0 : Fin S20000x256.rank) ∈ dot_S20000x256_S256x256_S20000x256_1_0_0_1_n_n.lhsBatch by decide), dif_pos (show (0 : Fin S20000x256.rank) ∈ dot_S20000x256_S256x256_S20000x256_1_0_0_1_n_n.lhsNonContracting by decide)]
  rfl
theorem lhs2_1 (i : S20000x256.Idx) (q : dot_S20000x256_S256x256_S20000x256_1_0_0_1_n_n.contr.Idx) :
    (dot_S20000x256_S256x256_S20000x256_1_0_0_1_n_n.lhsIdx i q 1).val = (q ⟨0, by decide⟩).val :=
  dot_S20000x256_S256x256_S20000x256_1_0_0_1_n_n.lhsIdx_val_of_single rfl i q
theorem rhs2_0 (i : S20000x256.Idx) (q : dot_S20000x256_S256x256_S20000x256_1_0_0_1_n_n.contr.Idx) :
    (dot_S20000x256_S256x256_S20000x256_1_0_0_1_n_n.rhsIdx i q 0).val = (q ⟨0, by decide⟩).val :=
  dot_S20000x256_S256x256_S20000x256_1_0_0_1_n_n.rhsIdx_val_of_single rfl i q
theorem rhs2_1 (i : S20000x256.Idx) (q : dot_S20000x256_S256x256_S20000x256_1_0_0_1_n_n.contr.Idx) :
    (dot_S20000x256_S256x256_S20000x256_1_0_0_1_n_n.rhsIdx i q 1).val = (i 1).val := by
  unfold DotDims.rhsIdx
  rw [dif_neg (show ¬(1 : Fin S256x256.rank) ∈ dot_S20000x256_S256x256_S20000x256_1_0_0_1_n_n.rhsBatch by decide), dif_pos (show (1 : Fin S256x256.rank) ∈ dot_S20000x256_S256x256_S20000x256_1_0_0_1_n_n.rhsNonContracting by decide)]
  rfl

/-- The host's product of a [20000, 256] matrix with a [256, 256] matrix is the specification's: at entry (p, q)
    the sum over the contracted index k of the left matrix at (p, k) times the right at (k, q). -/
theorem dot2_eq (X : FVec Ideal S20000x256 .f32) (Wt : FVec Ideal S256x256 .f32) :
    Host.dotGeneral dot_S20000x256_S256x256_S20000x256_1_0_0_1_n_n none X Wt = Cert.Spec.matProd X Wt := by
  funext i
  simp only [Host.dotGeneral]
  rw [Ideal.dotGeneral_apply, ← Equiv.sum_comp (ValueIdx.contrEquiv1 dot_S20000x256_S256x256_S20000x256_1_0_0_1_n_n 256 rfl rfl).symm]
  show _ = ∑ k : Fin 256, X (ValueIdx.ix2 (i 0) k) * Wt (ValueIdx.ix2 k (i 1))
  refine Finset.sum_congr rfl fun k _ => ?_
  have hk := ValueIdx.contrEquiv1_symm_val dot_S20000x256_S256x256_S20000x256_1_0_0_1_n_n 256 rfl rfl k
  have el : dot_S20000x256_S256x256_S20000x256_1_0_0_1_n_n.lhsIdx i ((ValueIdx.contrEquiv1 dot_S20000x256_S256x256_S20000x256_1_0_0_1_n_n 256 rfl rfl).symm k) = ValueIdx.ix2 (i 0) k := funext fun a => Fin.ext (by
    match a with
    | ⟨0, _⟩ => exact lhs2_0 _ _
    | ⟨1, _⟩ => exact (lhs2_1 _ _).trans hk)
  have er : dot_S20000x256_S256x256_S20000x256_1_0_0_1_n_n.rhsIdx i ((ValueIdx.contrEquiv1 dot_S20000x256_S256x256_S20000x256_1_0_0_1_n_n 256 rfl rfl).symm k) = ValueIdx.ix2 k (i 1) := funext fun a => Fin.ext (by
    match a with
    | ⟨0, _⟩ => exact (rhs2_0 _ _).trans hk
    | ⟨1, _⟩ => exact rhs2_1 _ _)
  rw [el, er]
  rfl

/-! ### The bias -/

/-- A vector broadcast to one row and then down the 20000 rows, at entry (p, q): the vector at q, which is
    where its reshaping to one row is read at (0, q). -/
theorem biasRows_apply (b : (⟨S256, .f32⟩ : BufTy).Contents (Elt Ideal)) (i : S20000x256.Idx) :
    broadcastInDim S20000x256 ![0, 1] bcast_S1x256_S20000x256_0_1 (broadcastInDim S1x256 ![1] bcast_S256_S1x256_1 b) i
      = Cert.KernelIdeal.Chain.rowT (F := Ideal) b (ValueIdx.ix2 (0 : Fin 1) (i 1)) := by
  have h1 : broadcastInDim S20000x256 ![0, 1] bcast_S1x256_S20000x256_0_1 (broadcastInDim S1x256 ![1] bcast_S256_S1x256_1 b) i
      = (broadcastInDim S1x256 ![1] bcast_S256_S1x256_1 b) (ValueIdx.ix2 (0 : Fin 1) (i 1)) := by
    generalize broadcastInDim S1x256 ![1] bcast_S256_S1x256_1 b = y
    exact broadcastInDim_apply _ bcast_S1x256_S20000x256_0_1 y i (ValueIdx.ix2 (0 : Fin 1) (i 1)) (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)])
  have h2 : (broadcastInDim S1x256 ![1] bcast_S256_S1x256_1 b) (ValueIdx.ix2 (0 : Fin 1) (i 1)) = b (ValueIdx.ix1 (i 1)) :=
    broadcastInDim_apply _ bcast_S256_S1x256_1 b (ValueIdx.ix2 (0 : Fin 1) (i 1)) (ValueIdx.ix1 (i 1)) (fun a => match a with
      | ⟨0, _⟩ => by show (i 1).val = if (256 : Nat) = 1 then 0 else (i 1).val; rw [if_neg (by decide)])
  have h3 : Cert.KernelIdeal.Chain.rowT (F := Ideal) b (ValueIdx.ix2 (0 : Fin 1) (i 1)) = b (ValueIdx.ix1 (i 1)) := by
    unfold Cert.KernelIdeal.Chain.rowT
    refine shapeCast_apply b _ (ValueIdx.ix2 (0 : Fin 1) (i 1)) (ValueIdx.ix1 (i 1)) ?_
    rw [Shape.rowMajor_val_one, Shape.rowMajor_val_two]
    show (i 1).val = 0 * 256 + (i 1).val
    omega
  rw [h1, h2, h3]

/-- The bias added to every row is the specification's row addition. -/
theorem bias_eq (A : (⟨S20000x256, .f32⟩ : BufTy).Contents (Elt Ideal)) (b : (⟨S256, .f32⟩ : BufTy).Contents (Elt Ideal)) :
    addf A (broadcastInDim S20000x256 ![0, 1] bcast_S1x256_S20000x256_0_1 (broadcastInDim S1x256 ![1] bcast_S256_S1x256_1 b))
      = Cert.Spec.addRow A (Cert.KernelIdeal.Chain.rowT (F := Ideal) b) := by
  funext i
  rw [ValueIdx.addf_apply, biasRows_apply, Cert.Spec.addRow_apply]

/-- The same followed by the maximum with the zero matrix is the specification's row addition and positive part. -/
theorem biasRelu_eq (A : (⟨S20000x256, .f32⟩ : BufTy).Contents (Elt Ideal)) (b : (⟨S256, .f32⟩ : BufTy).Contents (Elt Ideal)) :
    maximumf (addf A (broadcastInDim S20000x256 ![0, 1] bcast_S1x256_S20000x256_0_1 (broadcastInDim S1x256 ![1] bcast_S256_S1x256_1 b)))
        (broadcastInDim S20000x256 ![] bcast_S_S20000x256 (constant (F := Ideal) S_ .f32 0x00000000#32))
      = Cert.Spec.addRowRelu A (Cert.KernelIdeal.Chain.rowT (F := Ideal) b) := by
  funext i
  have hz : broadcastInDim S20000x256 ![] bcast_S_S20000x256 (constant (F := Ideal) S_ .f32 0x00000000#32) i = 0 := by
    generalize hy : constant (F := Ideal) S_ .f32 0x00000000#32 = y
    rw [broadcastInDim_apply _ bcast_S_S20000x256 y i ValueIdx.ix0 (fun a => a.elim0), ← hy]
    exact Ideal.ofBits_zero_f32
  rw [ValueIdx.maximumf_apply, ValueIdx.addf_apply, biasRows_apply, hz, Cert.Spec.addRowRelu_apply]

/-! ## The reference's result -/

/-- Over the extended reals the reference's term is the two-layer convolution of its arguments. -/
theorem refShape_eq_layers (x : (⟨S20000x128, .f32⟩ : BufTy).Contents (Elt Ideal)) (e : (⟨S2x320000, .i32⟩ : BufTy).Contents (Elt Ideal))
    (w1 : (⟨S128x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) :
    refShape (F := Ideal) x e w1 b1 w2 b2 = Cert.KernelIdeal.Layers.layers x e w1 b1 w2 b2 := by
  unfold refShape Cert.KernelIdeal.Layers.layers
  rw [dot1_eq, biasRelu_eq, dot2_eq, bias_eq]

theorem res_eq_layers (m : (ℓ : Loc nD τ sig) → Buf (Elt Ideal) ℓ) (c : Dev nD) :
    Cert.ReferenceIdeal.RunP.res_main_v64 (F := Ideal) m c
      = Cert.KernelIdeal.Layers.layers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (res_eq_refShape m c).trans (refShape_eq_layers _ _ _ _ _ _)

end Cert.ReferenceIdeal.Dense

end
-- ==== Proof.lean ====
/-
  A two-layer graph convolution: the kernel's program against its jnp reference, over the extended reals.

  Both programs compute agg (relu (agg (x W1) + b1) W2) + b2, where agg is the degree-normalised
  aggregation along the edges (with self loops). Their host operations are the same, line for line: the
  sources, targets and coefficients of the messages, and the gather, scaling and scatter-add of each
  aggregation (Chain.lean). They differ in the four dense pieces, which the kernel's program computes in
  TensorCore regions, ten blocks of 2000 rows each, and the reference on the host: the two products (a matmul
  into a zero accumulator against a host product: at the ideal instance both are the sum over the
  contracted index, and the kernel's narrowing of its operands is the identity) and the two bias rows (a
  one-row matrix repeated down the rows against a vector broadcast twice; the positive part is the maximum
  with zero on both sides). No law that needs finiteness joins the two sides, so the precondition is never
  opened.

  The pieces: the kernel's run with its result named as the fold of its segments (KRun.lean); that fold read
  back, region by region and stretch by stretch, to one function of the arguments (KFold.lean over
  RegionMatmul.lean and RegionBias.lean); the reference's run (RefRun.lean) and its term as the same function
  (RefFold.lean); here, the claims.
-/
import proofs.«157684_j84559316124099_1_alg».proof.Defs
import proofs.«157684_j84559316124099_1_alg».proof.Proof.Gen.Kernel
import proofs.«157684_j84559316124099_1_alg».proof.Proof.Gen.Kernel.Frame
import proofs.«157684_j84559316124099_1_alg».proof.Proof.Gen.KernelIdeal
import proofs.«157684_j84559316124099_1_alg».proof.Proof.Gen.KernelIdeal.Frame
import proofs.«157684_j84559316124099_1_alg».proof.Proof.Gen.ReferenceIdeal
import proofs.«157684_j84559316124099_1_alg».proof.Proof.Gen.Pre_finite_inputs
import proofs.«157684_j84559316124099_1_alg».proof.Proof.KRun
import proofs.«157684_j84559316124099_1_alg».proof.Proof.KFold
import proofs.«157684_j84559316124099_1_alg».proof.Proof.RegionMatmul
import proofs.«157684_j84559316124099_1_alg».proof.Proof.RegionBias
import proofs.«157684_j84559316124099_1_alg».proof.Proof.RefRun
import proofs.«157684_j84559316124099_1_alg».proof.Proof.RefFold
import Idealize.ShloMosaic.Adequacy
import Idealize.ShloMosaic.Init

noncomputable section

namespace Cert.Proof

open Idealize.ShloMosaic Idealize.ShloMosaic.TcCoe Idealize.SL.Sem

/-- The word-level kernel runs, and its arguments end as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealized kernel's run, its result read back: the two layers of the convolution of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v61) = Cert.KernelIdeal.Fold.result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.Fold.result_value m ρ c
        Cert.KernelIdeal.Hand.region0_value Cert.KernelIdeal.Hand.region1_value
        Cert.KernelIdeal.Hand.region2_value Cert.KernelIdeal.Hand.region3_value), (h c).2⟩)
    (Cert.KernelIdeal.Gen.run_named (F := Ideal) m ρ)

/-- From memories that agree on the arguments both programs end with the two layers of the convolution of those
    arguments: the kernel's by its fold read back, the reference's by its composed term. -/
theorem algebraic : Cert.algebraic_KernelIdeal_ReferenceIdeal := by
  intro m ρ m' ρ' _ hagree
  refine ⟨fun c => Cert.KernelIdeal.Fold.result m c, kernel_run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5⟩ := hagree c
  rw [Cert.ReferenceIdeal.Dense.res_eq_layers m' c, e0, e1, e2, e3, e4, e5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
